-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x6400000 : Shape := ⟨2, ![2, 6400000]⟩
abbrev S6400000x1 : Shape := ⟨2, ![6400000, 1]⟩
abbrev S_ : Shape := ⟨0, ![]⟩

class Facts : Prop where
  bcast_S_S6400000x1 : S_.BroadcastsInDim S6400000x1 (![] : Fin 0 → Fin S6400000x1.rank)
  reducesTo_S6400000x1_S_d0_1 : S6400000x1.ReducesTo [0, 1] S_
  h_S_ : 0 < S_.numel

variable [Facts]

def fn {F : FTy → Type} [FloatOps F] (main_arg0 : IVec S2x6400000 32) (main_arg1 : FVec F S6400000x1 .f32) : IVec S_ 1 :=
  let main_v0 : FVec F S6400000x1 .f32 := Host.absf main_arg1
  let main_cst : FVec F S_ .f32 := constant S_ .f32 0x7F800000#32
  let main_v1 : FVec F S6400000x1 .f32 := broadcastInDim S6400000x1 ![] bcast_S_S6400000x1 main_cst
  let main_v2 : IVec S6400000x1 1 := cmpf .olt main_v0 main_v1
  let main_c : IVec S_ 1 := constantI S_ 1 1#1
  let main_v3 : IVec S_ 1 := (fun x v => Host.reduce IntOp.andi x v reducesTo_S6400000x1_S_d0_1 h_S_) main_v2 main_c
  main_v3
-- ==== Kernel.lean ====
abbrev S2x6400000 : Shape := ⟨2, ![2, 6400000]⟩
abbrev S6400000x1 : Shape := ⟨2, ![6400000, 1]⟩
abbrev S6400000 : Shape := ⟨1, ![6400000]⟩
abbrev S1x6400000 : Shape := ⟨2, ![1, 6400000]⟩
abbrev S_ : Shape := ⟨0, ![]⟩
abbrev S100000 : Shape := ⟨1, ![100000]⟩
abbrev S100352 : Shape := ⟨1, ![100352]⟩
abbrev S784x128 : Shape := ⟨2, ![784, 128]⟩
abbrev S1x1 : Shape := ⟨2, ![1, 1]⟩
abbrev S112x128 : Shape := ⟨2, ![112, 128]⟩
abbrev S112 : Shape := ⟨1, ![112]⟩
abbrev S112x1 : Shape := ⟨2, ![112, 1]⟩
abbrev S1 : Shape := ⟨1, ![1]⟩

abbrev nBuf : Space → Nat
  | .hbm => 27
  | .vmem => 6
  | .smem => 0
  | _ => 0

abbrev bufTy : (tb : Table) → Fin (tcTables nBuf tb) → BufTy
  | .hbm, ⟨0, _⟩ => ⟨S2x6400000, .i32⟩
  | .hbm, ⟨1, _⟩ => ⟨S6400000x1, .f32⟩
  | .hbm, ⟨2, _⟩ => ⟨S6400000, .f32⟩
  | .hbm, ⟨3, _⟩ => ⟨S1x6400000, .i32⟩
  | .hbm, ⟨4, _⟩ => ⟨S6400000, .i32⟩
  | .hbm, ⟨5, _⟩ => ⟨S1x6400000, .i32⟩
  | .hbm, ⟨6, _⟩ => ⟨S6400000, .i32⟩
  | .hbm, ⟨7, _⟩ => ⟨S_, .f32⟩
  | .hbm, ⟨8, _⟩ => ⟨S100000, .f32⟩
  | .hbm, ⟨9, _⟩ => ⟨S6400000x1, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S6400000x1, .i32⟩
  | .hbm, ⟨14, _⟩ => ⟨S100000, .f32⟩
  | .hbm, ⟨15, _⟩ => ⟨S_, .i32⟩
  | .hbm, ⟨16, _⟩ => ⟨S_, .f32⟩
  | .hbm, ⟨17, _⟩ => ⟨S100352, .f32⟩
  | .hbm, ⟨18, _⟩ => ⟨S784x128, .f32⟩
  | .hbm, ⟨19, _⟩ => ⟨S_, .i32⟩
  | .hbm, ⟨20, _⟩ => ⟨S_, .f32⟩
  | .hbm, ⟨21, _⟩ => ⟨S100352, .f32⟩
  | .hbm, ⟨22, _⟩ => ⟨S784x128, .f32⟩
  | .hbm, ⟨23, _⟩ => ⟨S1x1, .f32⟩
  | .hbm, ⟨24, _⟩ => ⟨S_, .f32⟩
  | .hbm, ⟨25, _⟩ => ⟨S_, .f32⟩
  | .hbm, ⟨26, _⟩ => ⟨S_, .f32⟩
  | .local _ .vmem, ⟨0, _⟩ => ⟨S112x128, .f32⟩
  | .local _ .vmem, ⟨1, _⟩ => ⟨S112x128, .f32⟩
  | .local _ .vmem, ⟨2, _⟩ => ⟨S112x128, .f32⟩
  | .local _ .vmem, ⟨3, _⟩ => ⟨S112x128, .f32⟩
  | .local _ .vmem, ⟨4, _⟩ => ⟨S1x1, .f32⟩
  | .local _ .vmem, ⟨5, _⟩ => ⟨S1x1, .f32⟩
  | _, _ => ⟨S2x6400000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_call0_v0 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_call1_v0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![7], ![false]⟩

def k0_cond2 (i : grid0.Coords) : BitVec 1 :=
  let arg0 : BitVec 32 := BitVec.ofNat 32 (i 0).val
  let c6_i32 : BitVec 32 := 6#32
  let v18 : BitVec 1 := Scalar.cmpi .eq arg0 c6_i32
  let v19 : BitVec 32 := Scalar.extui v18
  let c0_i32_9 : BitVec 32 := 0#32
  let v20 : BitVec 1 := Scalar.cmpi .ne v19 c0_i32_9
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S112x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S112x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S6400000x1_S6400000 : S6400000x1.ShapeCasts S6400000
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S100000 : S_.BroadcastsInDim S100000 (![] : Fin 0 → Fin S100000.rank)
  bcast_S6400000_S6400000x1_0 : S6400000.BroadcastsInDim S6400000x1 (![0] : Fin 1 → Fin S6400000x1.rank)
  pads_S100000_S100352_03520 : S100000.Pads (![0] : Fin 1 → Nat) ![352] ![0] S100352
  h_S_ : 0 < S_.numel
  shapeCasts_S100352_S784x128 : S100352.ShapeCasts S784x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S112x128_S112x128_0_0 : ∀ a, (![0, 0] : Fin 2 → Nat) a + S112x128.size a ≤ S112x128.size a
  h_S112x128 : 0 < S112x128.numel
  shapeCasts_S112x128_S112x128 : S112x128.ShapeCasts S112x128
  reduces_S112x128_S112 : S112x128.Reduces [1] S112
  shapeCasts_S112_S112x1 : S112.ShapeCasts S112x1
  reduces_S112x1_S1 : S112x1.Reduces [0] S1
  shapeCasts_S1_S1x1 : S1.ShapeCasts S1x1
  shapeCasts_S1x1_S_ : S1x1.ShapeCasts S_
  scatter_S100000_S6400000x1_S6400000_n_0_0_1_wf : ScatterDims.WF S100000 S6400000x1 S6400000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S112x128.size a ≤ S784x128.size a
  hwx0_0 : ∀ i : grid0.Coords, EltTy.bits .f32 = 32 ∨ (Rect.block (s := S784x128) S112x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S112x128.size a ≤ S784x128.size a
  hwx0_1 : ∀ i : grid0.Coords, EltTy.bits .f32 = 32 ∨ (Rect.block (s := S784x128) S112x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf

abbrev win0_0 : Pipeline.Window sig grid0 :=
  Pipeline.Window.ofSpec (Memref.whole main_v12) S112x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S112x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S2x6400000 : Shape := ⟨2, ![2, 6400000]⟩
abbrev S6400000x1 : Shape := ⟨2, ![6400000, 1]⟩
abbrev S6400000 : Shape := ⟨1, ![6400000]⟩
abbrev S1x6400000 : Shape := ⟨2, ![1, 6400000]⟩
abbrev S_ : Shape := ⟨0, ![]⟩
abbrev S100000 : Shape := ⟨1, ![100000]⟩

abbrev nBuf : Space → Nat
  | .hbm => 21
  | .vmem => 0
  | .smem => 0
  | _ => 0

abbrev bufTy : (tb : Table) → Fin (tcTables nBuf tb) → BufTy
  | .hbm, ⟨0, _⟩ => ⟨S2x6400000, .i32⟩
  | .hbm, ⟨1, _⟩ => ⟨S6400000x1, .f32⟩
  | .hbm, ⟨2, _⟩ => ⟨S6400000, .f32⟩
  | .hbm, ⟨3, _⟩ => ⟨S1x6400000, .i32⟩
  | .hbm, ⟨4, _⟩ => ⟨S6400000, .i32⟩
  | .hbm, ⟨5, _⟩ => ⟨S_, .f32⟩
  | .hbm, ⟨6, _⟩ => ⟨S100000, .f32⟩
  | .hbm, ⟨7, _⟩ => ⟨S6400000x1, .i32⟩
  | .hbm, ⟨8, _⟩ => ⟨S100000, .f32⟩
  | .hbm, ⟨9, _⟩ => ⟨S1x6400000, .i32⟩
  | .hbm, ⟨10, _⟩ => ⟨S6400000, .i32⟩
  | .hbm, ⟨11, _⟩ => ⟨S_, .f32⟩
  | .hbm, ⟨12, _⟩ => ⟨S100000, .f32⟩
  | .hbm, ⟨13, _⟩ => ⟨S6400000x1, .i32⟩
  | .hbm, ⟨14, _⟩ => ⟨S100000, .f32⟩
  | .hbm, ⟨15, _⟩ => ⟨S100000, .f32⟩
  | .hbm, ⟨16, _⟩ => ⟨S100000, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | _, _ => ⟨S2x6400000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  shapeCasts_S6400000x1_S6400000 : S6400000x1.ShapeCasts S6400000
  slices_S2x6400000_S1x6400000_1_0 : S2x6400000.Slices ![1, 0] S1x6400000
  shapeCasts_S1x6400000_S6400000 : S1x6400000.ShapeCasts S6400000
  bcast_S_S100000 : S_.BroadcastsInDim S100000 (![] : Fin 0 → Fin S100000.rank)
  bcast_S6400000_S6400000x1_0 : S6400000.BroadcastsInDim S6400000x1 (![0] : Fin 1 → Fin S6400000x1.rank)
  slices_S2x6400000_S1x6400000_0_0 : S2x6400000.Slices ![0, 0] S1x6400000
  reducesTo_S100000_S_d0 : S100000.ReducesTo [0] S_
  h_S_ : 0 < S_.numel
  scatter_S100000_S6400000x1_S6400000_n_0_0_1_wf : ScatterDims.WF S100000 S6400000x1 S6400000 [] [0] [0] 1

variable [Facts₀]

def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf

class Facts : Prop extends Facts₀ where

variable [Facts]
-- ==== Proof.Spec.lean ====
/-
  The arithmetic that joins the two programs.

  The reference sums |a j - b j| over the 100000 nodes j. The kernel first extends both vectors by 352 zeros to
  100352 = 784 * 128 entries, lays them out row-major as 784 rows of 128 lanes, and walks the rows in 7 blocks of
  112: within a block it sums the lanes of each row, then the 112 row sums, and it adds the block's total to a
  running total that starts at zero. Entry (t * 112 + r, l) of the layout is entry (t * 112 + r) * 128 + l of the
  extended vector, so the kernel's triple sum runs over every position of the extended vector exactly once, and
  the positions past the end contribute |0 - 0| = 0. Sums of extended reals commute and associate, so no
  finiteness is needed anywhere.
-/
import Idealize.ShloMosaic.PureOps.Ideal.Laws
import Idealize.ShloMosaic.Lib.ValueIdx

noncomputable section

namespace Cert.MeanAbsDiff

open Idealize.ShloMosaic

/-- A vector of `n` entries read at any natural position: past its end it reads zero. -/
def padded {n : ℕ} (d : Fin n → EReal) (k : ℕ) : EReal := if h : k < n then d ⟨k, h⟩ else 0

theorem padded_of_lt {n : ℕ} (d : Fin n → EReal) {k : ℕ} (h : k < n) : padded d k = d ⟨k, h⟩ := dif_pos h

theorem padded_of_not_lt {n : ℕ} (d : Fin n → EReal) {k : ℕ} (h : ¬k < n) : padded d k = 0 := dif_neg h

/-- A sum over the rows and then along each row of a row-major layout is the sum over all positions. -/
theorem sum_rows_lanes (m n : ℕ) (g : ℕ → EReal) :
    ∑ a : Fin m, ∑ b : Fin n, g (a.val * n + b.val) = ∑ q : Fin (m * n), g q.val := by
  rw [← Fintype.sum_prod_type' (f := fun (a : Fin m) (b : Fin n) => g (a.val * n + b.val))]
  refine Fintype.sum_equiv finProdFinEquiv _ _ fun p => ?_
  rw [finProdFinEquiv_apply_val, Nat.mul_comm, Nat.add_comm]

/-- The extended vector sums to what the vector sums to: the extension is zeros. -/
theorem sum_padded {n p : ℕ} (d : Fin n → EReal) : ∑ k : Fin (n + p), padded d k.val = ∑ j : Fin n, d j := by
  rw [Fin.sum_univ_add]
  have h1 : ∀ i : Fin n, padded d (Fin.castAdd p i).val = d i := fun i => padded_of_lt d i.isLt
  have h2 : ∀ i : Fin p, padded d (Fin.natAdd n i).val = 0 := fun i =>
    padded_of_not_lt d (by rw [Fin.val_natAdd]; omega)
  simp only [h1, h2, Finset.sum_const_zero, add_zero]

/-- The kernel's order of summation — blocks, rows of a block, lanes of a row — over the extended vector, against
    the plain sum over the nodes. -/
theorem sum_blocks_rows_lanes (d : Fin 100000 → EReal) :
    ∑ t : Fin 7, ∑ r : Fin 112, ∑ l : Fin 128, padded d ((t.val * 112 + r.val) * 128 + l.val) = ∑ j : Fin 100000, d j := by
  have e1 := sum_rows_lanes 7 112 fun q => ∑ l : Fin 128, padded d (q * 128 + l.val)
  have e2 := sum_rows_lanes (7 * 112) 128 (padded d)
  have e3 := sum_padded (n := 100000) (p := 352) d
  exact e1.trans (e2.trans e3)

/-- A running total that starts from `z + b 0` and adds `b (n + 1)` at step `n + 1`. -/
def running (z : EReal) (b : ℕ → EReal) : ℕ → EReal
  | 0 => z + b 0
  | n + 1 => running z b n + b (n + 1)

theorem running_eq (z : EReal) (b : ℕ → EReal) (n : ℕ) : running z b n = z + ∑ s ∈ Finset.range (n + 1), b s := by
  induction n with
  | zero => simp [running]
  | succ n ih => rw [running, ih, Finset.sum_range_succ _ (n + 1), add_assoc]

/-- After the seventh block the running total from zero is the sum over the nodes. -/
theorem running_six (d : Fin 100000 → EReal) :
    running 0 (fun t => ∑ r : Fin 112, ∑ l : Fin 128, padded d ((t * 112 + r.val) * 128 + l.val)) 6 = ∑ j : Fin 100000, d j := by
  rw [running_eq, zero_add, ← sum_blocks_rows_lanes d, Finset.sum_range]

/-- A total divided by the node count as the host divides it: the one-entry array holding the total over the
    number 100000.0. Both programs end in this division, by the same divisor, so it is never opened. -/
def meanOf (s : EReal) : FVec Ideal ⟨0, ![]⟩ .f32 :=
  Host.divf (fun _ => s) (constant ⟨0, ![]⟩ .f32 0x47C35000#32)

/-- The absolute difference of two zeros is zero. -/
theorem absdiff_zero : FloatOps.absf (FloatOps.subf (0 : Ideal .f32) (0 : Ideal .f32)) = (0 : Ideal .f32) := by
  show max ((0 : EReal) - 0) (-((0 : EReal) - 0)) = 0
  simp

end Cert.MeanAbsDiff

end
-- ==== Proof.LibKeepdims.lean ====
/-
  Keepdims forms read at an index, and a lane sum as a plain sum.

  A row-wise reduction with `keepdims=True` leaves a vector [a] that is cast to a column [a, 1] and then broadcast
  across the columns to [a, b]; or, for the other operand of an outer sum, cast to a column [b, 1], transposed to a
  row [1, b] and broadcast down the rows to [a, b]. Read at (p, q) the first is the vector at p and the second the
  vector at q. A `[1, b]` block cast to itself and broadcast down the rows reads its one row at q. And at the
  ideal values a sum along the lanes of an [a, b] array, read at row p, is the plain sum over the row.
  All for any extents.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibKeepdims

open Idealize.ShloMosaic Idealize.ShloMosaic.ValueIdx

variable {α : Type}

/-- A vector [a] as a column [a, 1] broadcast across the columns of [a, b]: at (p, q), the vector at p. -/
theorem column_broadcast_apply {a b : ℕ} (v : (⟨1, ![a]⟩ : Shape).Idx → α)
    (h₁ : (⟨1, ![a]⟩ : Shape).ShapeCasts ⟨2, ![a, 1]⟩) (h₂ : (⟨2, ![a, 1]⟩ : Shape).Broadcasts ⟨2, ![a, b]⟩)
    (p : Fin a) (q : Fin b) :
    broadcastTo ⟨2, ![a, b]⟩ (shapeCast ⟨2, ![a, 1]⟩ v h₁) h₂ (ix2 p q) = v (ix1 p) := by
  refine (broadcastTo_apply _ h₂ (ix2 p q) (ix2 p (0 : Fin 1)) fun ax => ?_).trans
    (shapeCast_apply v h₁ _ _ ?_)
  · match ax with
    | ⟨0, _⟩ =>
      show p.val = if a = 1 then 0 else p.val
      split
      · have := p.isLt; omega
      · rfl
    | ⟨1, _⟩ => rfl
  · rw [Shape.rowMajor_val_one, Shape.rowMajor_val_two]
    show p.val = p.val * 1 + 0
    omega

/-- A vector [b] as a column [b, 1], transposed to a row [1, b] and broadcast down the rows of [a, b]: at (p, q),
    the vector at q. -/
theorem row_of_column_broadcast_apply {a b : ℕ} (v : (⟨1, ![b]⟩ : Shape).Idx → α)
    (h₁ : (⟨1, ![b]⟩ : Shape).ShapeCasts ⟨2, ![b, 1]⟩) (h₃ : (⟨2, ![b, 1]⟩ : Shape).Transposes [1, 0] ⟨2, ![1, b]⟩)
    (h₂ : (⟨2, ![1, b]⟩ : Shape).Broadcasts ⟨2, ![a, b]⟩) (p : Fin a) (q : Fin b) :
    broadcastTo ⟨2, ![a, b]⟩ (transpose ⟨2, ![1, b]⟩ [1, 0] (shapeCast ⟨2, ![b, 1]⟩ v h₁) h₃) h₂ (ix2 p q) = v (ix1 q) := by
  refine (broadcastTo_1b_ab_apply _ h₂ p q).trans ((transpose_ix2_apply _ h₃ (0 : Fin 1) q).trans
    (shapeCast_apply v h₁ _ _ ?_))
  rw [Shape.rowMajor_val_one, Shape.rowMajor_val_two]
  show q.val = q.val * 1 + 0
  omega

/-- A [1, b] block cast to its own shape and broadcast down the rows of [a, b]: at (p, q), its one row at q. -/
theorem row_broadcast_apply {a b : ℕ} (v : (⟨2, ![1, b]⟩ : Shape).Idx → α)
    (h₁ : (⟨2, ![1, b]⟩ : Shape).ShapeCasts ⟨2, ![1, b]⟩) (h₂ : (⟨2, ![1, b]⟩ : Shape).Broadcasts ⟨2, ![a, b]⟩)
    (p : Fin a) (q : Fin b) :
    broadcastTo ⟨2, ![a, b]⟩ (shapeCast ⟨2, ![1, b]⟩ v h₁) h₂ (ix2 p q) = v (ix2 (0 : Fin 1) q) :=
  (broadcastTo_1b_ab_apply _ h₂ p q).trans (congrFun (shapeCast_self v h₁) _)

/-- At the ideal values the sum along the lanes of an [a, b] array from the zero pattern, read at row p, is the
    sum of the row. -/
theorem lane_sum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec (FTy.bits .f32)) = FKind.add.neutral .f32 hφ) (p : Fin a) :
    multiReduction (F := Ideal) .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src
      (funext fun ax => Fin.ext (by match ax with | ⟨0, _⟩ => rfl | ⟨1, _⟩ => rfl)))

end Cert.LibKeepdims

end
-- ==== Proof.LibColumnSum.lean ====
/-
  A sum down the rows, read at a column; and a sum over the indices of a vector as a sum over its positions.

  At the ideal values a `multi_reduction <add>` over axis 0 of an [a, b] array from the zero pattern, read at
  column q, is the plain sum over the rows of the entries of that column. And a sum over the index set of a vector
  of n entries is the sum over k < n of the term at the index of position k. For any extents.
-/
import Idealize.ShloMosaic.Lib.ValueIdx
import Idealize.ShloMosaic.PureOps.Ideal.Laws

noncomputable section

namespace Cert.LibColumnSum

open Idealize.ShloMosaic Idealize.ShloMosaic.ValueIdx

/-- At the ideal values the sum down the rows of an [a, b] array from the zero pattern, read at column q, is the
    sum of the column. -/
theorem column_sum_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec (FTy.bits .f32)) = FKind.add.neutral .f32 hφ) (q : Fin b) :
    multiReduction (F := Ideal) .add [0] ⟨1, ![b]⟩ src 0x00000000#32 h hφ hacc (ix1 q) = ∑ k : Fin a, src (ix2 k q) :=
  (Ideal.multiReduction_add_single src _ h hφ hacc (ix1 q)).trans
    (Finset.sum_congr rfl fun k _ => congrArg src
      (funext fun ax => Fin.ext (by match ax with | ⟨0, _⟩ => rfl | ⟨1, _⟩ => rfl)))

/-- A sum over the index set of a vector of `n` entries is the sum over the positions `k < n`. -/
theorem sum_idx1 {M : Type*} [AddCommMonoid M] {n : ℕ} (f : (⟨1, ![n]⟩ : Shape).Idx → M) :
    ∑ i : (⟨1, ![n]⟩ : Shape).Idx, f i = ∑ k : Fin n, f (ix1 k) :=
  (Equiv.sum_comp (⟨ix1, fun i => i 0, fun _ => rfl, fun i => (eq_ix1 i).symm⟩ : Fin n ≃ (⟨1, ![n]⟩ : Shape).Idx) f).symm

end Cert.LibColumnSum

end
-- ==== Proof.KernelValue.lean ====
/-
  What the kernel computes, as a function of the two argument arrays.

  Before the grid runs, the host forms the two vectors of per-node sums (the edge values added up by destination
  node and by source node), extends each by 352 zeros and lays it out as 784 rows of 128 lanes. The grid has 7
  points; point t is handed rows 112 t .. 112 t + 111 of both layouts. At each point the body takes the absolute
  difference of the two blocks entry by entry, sums along the lanes, sums the 112 row sums, and adds that block
  total to a one-entry running total carried from point to point; the first point starts the running total at
  zero, the last point copies it to the one-entry result array. After the grid the host reads the entry and
  divides it by 100000.

  Read at the ideal values: entry (r, l) of block t is entry (112 t + r) * 128 + l of the extended vector, so the
  block total at point t is the sum of the per-node absolute differences over that block's positions (zero at the
  352 positions past the last node), the running total after point n is zero plus the block totals up to n, and
  the result entry is the sum over all 100000 nodes.
-/
import proofs.«126315_j58102317580772_1_alg».proof.Proof.Gen.KernelIdeal.Frame
import proofs.«126315_j58102317580772_1_alg».proof.Proof.Spec
import proofs.«126315_j58102317580772_1_alg».proof.Proof.LibKeepdims
import proofs.«126315_j58102317580772_1_alg».proof.Proof.LibColumnSum
import Idealize.ShloMosaic.Lib.Pipeline.Value
import Idealize.ShloMosaic.Lib.ValueIdx
import Idealize.ShloMosaic.Lib.ValueLayout
import Idealize.ShloMosaic.Lib.KernelVsHost
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.AbsDiff

open Cert.KernelIdeal Cert.KernelIdeal.Gen Cert.MeanAbsDiff

/-! ## What each kind of grid point leaves behind -/

section Pieces

variable {F : FTy → Type} [FloatOps F]

theorem hz : (![0, 0] : Fin 2 → Nat) = fun _ => 0 := funext fun a => by fin_cases a <;> rfl

/-- At the first point the running total is reset to the zero entry and then receives the block total: it ends
    at the body's sum over the two blocks, started from the zero entry. -/
theorem first_point_total (c : Dev nD) (i : grid0.Coords) (a1 : Memref sig .tc .vmem S112x128 .f32) (h1 : a1.IsWhole)
    (a2 : Memref sig .tc .vmem S112x128 .f32) (h2 : a2.IsWhole) (a3 : Memref sig .tc .vmem S1x1 .f32) (h3 : a3.IsWhole)
    (a4 : Memref sig .tc .vmem S1x1 .f32) (h4 : a4.IsWhole) (hc0 : cond0_0 i) (hc1 : ¬cond0_1 i)
    (x0 x1 : Vec F S112x128 .f32) :
    sout0_A_0 c i a1 h1 a2 h2 a3 h3 a4 h4 hc0 hc1 x0 x1 = k0_pay2 x0 x1 k0_pay1 := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S112x128) hz,
    View.ld_unit_zero (S := S1x1) hz]

/-- At a middle point the running total, found at `xs0`, receives the block total. -/
theorem middle_point_total (c : Dev nD) (i : grid0.Coords) (a1 : Memref sig .tc .vmem S112x128 .f32) (h1 : a1.IsWhole)
    (a2 : Memref sig .tc .vmem S112x128 .f32) (h2 : a2.IsWhole) (a3 : Memref sig .tc .vmem S1x1 .f32) (h3 : a3.IsWhole)
    (a4 : Memref sig .tc .vmem S1x1 .f32) (h4 : a4.IsWhole) (hc0 : ¬cond0_0 i) (hc1 : ¬cond0_1 i)
    (x0 x1 : Vec F S112x128 .f32) (xs0 : Vec F S1x1 .f32) :
    sout0_B_0 c i a1 h1 a2 h2 a3 h3 a4 h4 hc0 hc1 x0 x1 xs0 = k0_pay2 x0 x1 xs0 := by
  unfold sout0_B_0
  rw [View.read_writes_eq_canon _ _ _ (scover0_B_0 c i a1 h1 a2 h2 a3 h3 a4 h4 hc0 hc1 x0 x1 xs0)]
  unfold kernelRun0_B
  dsimp only
  sl_unfold_words
  rw [View.canon_unit_zero hz]
  simp only [View.readAt_eq_ld, h1.read_unread, h2.read_unread, h4.read_unread, View.ld_unit_zero (S := S112x128) hz,
    View.ld_unit_zero (S := S1x1) hz]

/-- At the last point the running total receives the block total in the same way, -/
theorem last_point_total (c : Dev nD) (i : grid0.Coords) (a1 : Memref sig .tc .vmem S112x128 .f32) (h1 : a1.IsWhole)
    (a2 : Memref sig .tc .vmem S112x128 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S112x128 .f32) (xs0 : Vec F S1x1 .f32) :
    sout0_C_0 c i a1 h1 a2 h2 a3 h3 a4 h4 hc0 hc1 x0 x1 xs0 = k0_pay2 x0 x1 xs0 := by
  unfold sout0_C_0
  rw [View.read_writes_eq_canon _ _ _ (scover0_C_0 c i a1 h1 a2 h2 a3 h3 a4 h4 hc0 hc1 x0 x1 xs0)]
  unfold kernelRun0_C
  dsimp only
  sl_unfold_words
  rw [View.canon_unit_zero hz]
  simp only [View.readAt_eq_ld, h1.read_unread, h2.read_unread, h4.read_unread, View.ld_unit_zero (S := S112x128) hz,
    View.ld_unit_zero (S := S1x1) hz]

/-- and the result block is a copy of the running total just written. -/
theorem last_point_result (c : Dev nD) (i : grid0.Coords) (a1 : Memref sig .tc .vmem S112x128 .f32) (h1 : a1.IsWhole)
    (a2 : Memref sig .tc .vmem S112x128 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S112x128 .f32) (xs0 : Vec F S1x1 .f32) :
    out0_C_2 c i a1 h1 a2 h2 a3 h3 a4 h4 hc0 hc1 x0 x1 xs0 = k0_pay2 x0 x1 xs0 := by
  unfold out0_C_2
  rw [View.read_writes_eq_canon _ _ _ (cover0_C_2 c i a1 h1 a2 h2 a3 h3 a4 h4 hc0 hc1 x0 x1 xs0)]
  unfold kernelRun0_C
  dsimp only
  sl_unfold_words
  rw [View.canon_unit_zero hz]
  simp only [View.readAt_eq_ld, h1.read_unread, h2.read_unread, h4.read_unread, View.ld_unit_zero (S := S112x128) hz,
    View.ld_unit_zero (S := S1x1) hz, View.readCov_unit_zero (S := S1x1) _ hz]

end Pieces

/-! ## The body's sum at the ideal values -/

/-- The entry the first point resets the running total to is zero. -/
theorem zero_entry_apply (y : S1x1.Idx) : k0_pay1 (F := Ideal) y = 0 := by
  unfold k0_pay1
  rw [shapeCast_self]
  show Ideal.ofBits .f32 0x00000000#32 = 0
  exact Ideal.ofBits_zero_f32

/-- The body's new running total is the old one plus the sum, over the 112 rows and then the 128 lanes of each, of
    the absolute differences of the two blocks. -/
theorem block_total_apply (x0 x1 : Vec Ideal S112x128 .f32) (a : Vec Ideal S1x1 .f32) :
    k0_pay2 (F := Ideal) x0 x1 a (ix2 (0 : Fin 1) (0 : Fin 1))
      = a (ix2 (0 : Fin 1) (0 : Fin 1))
        + ∑ r : Fin 112, ∑ l : Fin 128, FloatOps.absf (FloatOps.subf (x0 (ix2 r l)) (x1 (ix2 r l))) := by
  unfold k0_pay2
  rw [shapeCast_self, shapeCast_self, shapeCast_self]
  show a (ix2 0 0) + shapeCast S1x1 _ shapeCasts_S1_S1x1 (ix2 (0 : Fin 1) (0 : Fin 1)) = _
  congr 1
  refine (shapeCast_apply _ shapeCasts_S1_S1x1 (ix2 (0 : Fin 1) (0 : Fin 1)) (ix1 (0 : Fin 1)) (by
    rw [Shape.rowMajor_val_one, Shape.rowMajor_val_two]; rfl)).trans ?_
  refine (Cert.LibColumnSum.column_sum_apply _ reduces_S112x1_S1 (.inl rfl) rfl (0 : Fin 1)).trans ?_
  refine Finset.sum_congr rfl fun r _ => ?_
  refine (shapeCast_apply _ shapeCasts_S112_S112x1 (ix2 r (0 : Fin 1)) (ix1 r) (by
    rw [Shape.rowMajor_val_one, Shape.rowMajor_val_two]; show r.val = r.val * 1 + 0; omega)).trans ?_
  exact Cert.LibKeepdims.lane_sum_apply _ reduces_S112x128_S112 (.inl rfl) rfl r

/-! ## The two layouts the grid reads -/

section Layouts

variable {F : FTy → Type} [FloatOps F]
variable (m : (ℓ : Loc nD τ sig) → Buf (Elt F) ℓ)

/-- The edge values as one vector. -/
abbrev edgeVals (c : Dev nD) : FVec F S6400000 .f32 :=
  shapeCast _ (m ((c.tc : Thread nD τ).loc main_arg1)) shapeCasts_S6400000x1_S6400000

/-- The sums of the edge values by destination node (row 1 of the edge list). -/
def incoming (c : Dev nD) : FVec F S100000 .f32 :=
  Host.scatterAdd scatter_S100000_S6400000x1_S6400000_n_0_0_1
    (broadcastInDim S100000 ![] bcast_S_S100000 (constant S_ .f32 0x00000000#32))
    (broadcastInDim S6400000x1 ![0] bcast_S6400000_S6400000x1_0
      (shapeCast _ (extractStridedSlice S1x6400000 ![1, 0] (m ((c.tc : Thread nD τ).loc main_arg0)) slices_S2x6400000_S1x6400000_1_0)
        shapeCasts_S1x6400000_S6400000))
    (edgeVals m c)

/-- The sums of the edge values by source node (row 0 of the edge list). -/
def outgoing (c : Dev nD) : FVec F S100000 .f32 :=
  Host.scatterAdd scatter_S100000_S6400000x1_S6400000_n_0_0_1
    (broadcastInDim S100000 ![] bcast_S_S100000 (constant S_ .f32 0x00000000#32))
    (broadcastInDim S6400000x1 ![0] bcast_S6400000_S6400000x1_0
      (shapeCast _ (extractStridedSlice S1x6400000 ![0, 0] (m ((c.tc : Thread nD τ).loc main_arg0)) slices_S2x6400000_S1x6400000_0_0)
        shapeCasts_S1x6400000_S6400000))
    (edgeVals m c)

/-- A vector over the nodes extended by 352 zeros and laid out as 784 rows of 128 lanes. -/
abbrev laidOut (x : FVec F S100000 .f32) : FVec F S784x128 .f32 :=
  shapeCast S784x128 (pad S100352 ![0] ![352] ![0] x (sitofp .f32 (constantI S_ 32 0#32)) pads_S100000_S100352_03520 h_S_)
    shapeCasts_S100352_S784x128

/-- The grid's first array is the laid-out sums by destination, -/
theorem incArr_eq (c : Dev nD) : (V m c main_v12 : FVec F S784x128 .f32) = laidOut (incoming m c) := by
  dsimp only [Gen.V, Gen.V0]
  simp only [hostOps0, hostOps0_1, hostOps0_2, hostOps0_3, hostOps0_4, List.flatten_cons, List.flatten_nil, List.append_nil,
    List.cons_append, List.nil_append]
  after_results
  rfl

/-- and its second the laid-out sums by source. -/
theorem outArr_eq (c : Dev nD) : (V m c main_v14 : FVec F S784x128 .f32) = laidOut (outgoing m c) := by
  dsimp only [Gen.V, Gen.V0]
  simp only [hostOps0, hostOps0_1, hostOps0_2, hostOps0_3, hostOps0_4, List.flatten_cons, List.flatten_nil, List.append_nil,
    List.cons_append, List.nil_append]
  after_results
  rfl

theorem row_lt (t : Fin cfg0.N) (r : Fin 112) : t.val * 112 + r.val < 784 := by
  have := t.isLt; have : cfg0.N = 7 := N_0; omega

/-- Entry (r, l) of the first block at point t is entry (112 t + r, l) of the first array, -/
theorem inc_block_apply (c : Dev nD) (t : Fin cfg0.N) (r : Fin 112) (l : Fin 128) :
    (iblk m c 0 t : Vec F S112x128 .f32) (ix2 r l)
      = (V m c main_v12 : FVec F S784x128 .f32) (ix2 (⟨t.val * 112 + r.val, row_lt t r⟩ : Fin 784) l) := by
  have hi : win0_0.index t 0 = t.val ∧ win0_0.index t 1 = 0 :=
    (by decide +kernel : ∀ t : Fin grid0.N, win0_0.index t 0 = t.val ∧ win0_0.index t 1 = 0) t
  unfold iblk
  rw [View.read_apply]
  show V m c main_v12 _ = V m c main_v12 _
  congr 1
  funext a
  apply Fin.ext
  match a with
  | ⟨0, _⟩ => show win0_0.index t 0 * 112 + 1 * r.val = t.val * 112 + r.val; rw [hi.1]; omega
  | ⟨1, _⟩ => show win0_0.index t 1 * 128 + 1 * l.val = l.val; rw [hi.2]; omega

/-- and likewise for the second. -/
theorem out_block_apply (c : Dev nD) (t : Fin cfg0.N) (r : Fin 112) (l : Fin 128) :
    (iblk m c 1 t : Vec F S112x128 .f32) (ix2 r l)
      = (V m c main_v14 : FVec F S784x128 .f32) (ix2 (⟨t.val * 112 + r.val, row_lt t r⟩ : Fin 784) l) := by
  have hi : win0_1.index t 0 = t.val ∧ win0_1.index t 1 = 0 :=
    (by decide +kernel : ∀ t : Fin grid0.N, win0_1.index t 0 = t.val ∧ win0_1.index t 1 = 0) t
  unfold iblk
  rw [View.read_apply]
  show V m c main_v14 _ = V m c main_v14 _
  congr 1
  funext a
  apply Fin.ext
  match a with
  | ⟨0, _⟩ => show win0_1.index t 0 * 112 + 1 * r.val = t.val * 112 + r.val; rw [hi.1]; omega
  | ⟨1, _⟩ => show win0_1.index t 1 * 128 + 1 * l.val = l.val; rw [hi.2]; omega

end Layouts

/-- Entry (q, l) of a laid-out vector is entry 128 q + l of the vector, and zero past its end. -/
theorem laidOut_apply (x : FVec Ideal S100000 .f32) (q : Fin 784) (l : Fin 128) :
    laidOut x (ix2 q l) = padded (fun j : Fin 100000 => x (ix1 j)) (q.val * 128 + l.val) := by
  have hk : q.val * 128 + l.val < 100352 := by have := q.isLt; have := l.isLt; omega
  refine (shapeCast_apply _ shapeCasts_S100352_S784x128 (ix2 q l) (ix1 (⟨q.val * 128 + l.val, hk⟩ : Fin 100352)) (by
    rw [Shape.rowMajor_val_one, Shape.rowMajor_val_two]; rfl)).trans ?_
  by_cases h : q.val * 128 + l.val < 100000
  · rw [padded_of_lt _ h]
    exact pad_apply_of_inside _ _ _ x _ pads_S100000_S100352_03520 h_S_ _ (ix1 (⟨q.val * 128 + l.val, h⟩ : Fin 100000))
      (fun a => match a with | ⟨0, _⟩ => by show q.val * 128 + l.val = 0 + (q.val * 128 + l.val) * (0 + 1); omega)
  · rw [padded_of_not_lt _ h]
    refine (pad_apply_of_not_inside _ _ _ x _ pads_S100000_S100352_03520 h_S_ _ (0 : Fin 1) (by
      show ¬(0 ≤ q.val * 128 + l.val ∧ (q.val * 128 + l.val - 0) % (0 + 1) = 0 ∧ (q.val * 128 + l.val - 0) / (0 + 1) < 100000)
      omega)).trans ?_
    show ((((0#32 : BitVec 32).toInt : ℤ) : ℝ) : EReal) = 0
    simp

/-! ## The running total, and the result -/

section Totals

variable (m : (ℓ : Loc nD τ sig) → Buf (Elt Ideal) ℓ) (ρ : Dev nD → PrngReg)

/-- The absolute difference, at node j, of the sum by destination and the sum by source. -/
def nodeAbsDiff (c : Dev nD) (j : Fin 100000) : EReal :=
  FloatOps.absf (FloatOps.subf (incoming m c (ix1 j)) (outgoing m c (ix1 j)))

/-- An entry of the blockwise absolute difference at point t is the per-node absolute difference at its position in
    the extended vector: past the last node both blocks hold zero, and |0 - 0| = 0. -/
theorem absdiff_block_apply (c : Dev nD) (t : Fin cfg0.N) (r : Fin 112) (l : Fin 128) :
    (FloatOps.absf (FloatOps.subf (((iblk m c 0 t : Vec Ideal S112x128 .f32) (ix2 r l)) : Ideal .f32)
        (((iblk m c 1 t : Vec Ideal S112x128 .f32) (ix2 r l)) : Ideal .f32)) : Ideal .f32)
      = padded (nodeAbsDiff m c) ((t.val * 112 + r.val) * 128 + l.val) := by
  rw [inc_block_apply, out_block_apply, incArr_eq, outArr_eq, laidOut_apply, laidOut_apply]
  by_cases h : (t.val * 112 + r.val) * 128 + l.val < 100000
  · rw [padded_of_lt _ h, padded_of_lt _ h, padded_of_lt _ h]; rfl
  · rw [padded_of_not_lt _ h, padded_of_not_lt _ h, padded_of_not_lt _ h]; exact absdiff_zero

/-- The block total at point t, over positions of the extended vector. -/
abbrev blockTotal (c : Dev nD) (t : ℕ) : EReal :=
  ∑ r : Fin 112, ∑ l : Fin 128, padded (nodeAbsDiff m c) ((t * 112 + r.val) * 128 + l.val)

theorem block_sum_eq (c : Dev nD) (t : Fin cfg0.N) :
    (∑ r : Fin 112, ∑ l : Fin 128, (FloatOps.absf (FloatOps.subf (((iblk m c 0 t : Vec Ideal S112x128 .f32) (ix2 r l)) : Ideal .f32)
        (((iblk m c 1 t : Vec Ideal S112x128 .f32) (ix2 r l)) : Ideal .f32)) : Ideal .f32)) = blockTotal m c t.val :=
  Finset.sum_congr rfl fun r _ => Finset.sum_congr rfl fun l _ => absdiff_block_apply m c t r l

/-- After point n the carried running total is zero plus the block totals of the points up to n: by induction on
    the point, the first point resetting, every later one adding to what the point before left. -/
theorem carried_eq (c : Dev nD) : ∀ (n : ℕ) (h : n < cfg0.N),
    (outsAt0 m c n h).2 (ix2 (0 : Fin 1) (0 : Fin 1)) = running 0 (blockTotal m c) n
  | 0, h => by
    rw [outsAt0_A m c ⟨0, h⟩ rfl (by show ¬(0 % 7 = 6); decide)]
    dsimp only
    rw [first_point_total, block_total_apply, zero_entry_apply, block_sum_eq]
    rfl
  | n + 1, h => by
    have hN : cfg0.N = 7 := N_0
    have h0 : ¬(⟨n + 1, h⟩ : Fin cfg0.N).val % 7 = 0 := by dsimp only; omega
    by_cases h1 : (⟨n + 1, h⟩ : Fin cfg0.N).val % 7 = 6
    · rw [outsAt0_C m c ⟨n + 1, h⟩ h0 h1]
      dsimp only
      rw [last_point_total, block_total_apply, block_sum_eq]
      show (outsAt0 m c n _).2 (ix2 (0 : Fin 1) (0 : Fin 1)) + _ = running 0 (blockTotal m c) n + _
      rw [carried_eq c n]
    · rw [outsAt0_B m c ⟨n + 1, h⟩ h0 h1]
      dsimp only
      rw [middle_point_total, block_total_apply, block_sum_eq]
      show (outsAt0 m c n _).2 (ix2 (0 : Fin 1) (0 : Fin 1)) + _ = running 0 (blockTotal m c) n + _
      rw [carried_eq c n]

theorem six_lt : 6 < cfg0.N := by rw [show cfg0.N = 7 from N_0]; decide

/-- What the last point leaves in the result block: its one entry is the sum over the nodes. -/
theorem result_block_apply (c : Dev nD) :
    (outsAt0 m c 6 six_lt).1 (ix2 (0 : Fin 1) (0 : Fin 1)) = ∑ j : Fin 100000, nodeAbsDiff m c j := by
  rw [outsAt0_C m c ⟨6, six_lt⟩ (by show ¬(6 % 7 = 0); decide) (by show 6 % 7 = 6; decide)]
  dsimp only
  rw [last_point_result, block_total_apply, block_sum_eq]
  show (outsAt0 m c 5 _).2 (ix2 (0 : Fin 1) (0 : Fin 1)) + blockTotal m c 6 = _
  rw [carried_eq m c 5, ← running_six (nodeAbsDiff m c)]
  rfl

end Totals

/-! ## The result array, the division after the grid, and the run -/

section Run

variable (m : (ℓ : Loc nD τ sig) → Buf (Elt Ideal) ℓ) (ρ : Dev nD → PrngReg)

/-- A one-by-one array has one index. -/
theorem one_index (a b : S1x1.Idx) : a = b := funext fun d => match d with
  | ⟨0, _⟩ => Fin.ext (by
      have h1 : (a 0).val < 1 := (a 0).isLt
      have h2 : (b 0).val < 1 := (b 0).isLt
      show (a 0).val = (b 0).val
      omega)
  | ⟨1, _⟩ => Fin.ext (by
      have h1 : (a 1).val < 1 := (a 1).isLt
      have h2 : (b 1).val < 1 := (b 1).isLt
      show (a 1).val = (b 1).val
      omega)

/-- The result array after the grid: what the last point left in the result block. -/
abbrev resultArr (c : Dev nD) : Buf (Elt Ideal) ((c : Thread nD τ).loc main_v15) := (outsAt0 m c 6 six_lt).1

/-- Only the last point writes the result block back, and the block is the whole one-entry array. -/
theorem written_back (c : Dev nD) (t : Fin cfg0.N) (hf : (cfg0.win 2).flush t = true) :
    (dats m 0 c).flushed 2 t = ((cfg0.win 2).blk t).view.read (Elt Ideal) (resultArr m c) := by
  have hN : cfg0.N = 7 := N_0
  have h6 : t.val = 6 := by have := (flush0_2 t).mp hf; have := t.isLt; omega
  obtain rfl : t = ⟨6, six_lt⟩ := Fin.ext h6
  funext y
  rw [View.read_apply]
  show (dats m 0 c).after 2 ⟨6, six_lt⟩ y = _
  rw [after0_2]
  exact congrArg _ (one_index _ _)

/-- So the result array ends at what the last point left. -/
theorem final_result (c : Dev nD) : (dats m 0 c).arrAt 2 cfg0.N = resultArr m c :=
  (dats m 0 c).arrAt_eq_of_cover 2 (resultArr m c) (written_back m c) fun i =>
    ⟨⟨6, six_lt⟩, (flush0_2 _).mpr rfl, by
      have hmem := ((cfg0.win 2).blk ⟨6, six_lt⟩).view.emb_mem_set i
      have e : ((cfg0.win 2).blk ⟨6, six_lt⟩).view.emb i = i := one_index _ _
      rw [e] at hmem
      exact hmem⟩

/-- After the grid the host reads the one entry of the result array and divides it by the node count. -/
theorem tail_term (c : Dev nD) :
    Pipeline.afterTail₀ cfgs (dats m) 0 (V0 m) [hostOps1] c main_v17
      = (Host.divf (F := Ideal) (shapeCast S_ (Pipeline.withArrays (cfgs 0).spec c (V0 m c) (fun w => (dats m 0 c).arrAt w (cfgs 0).N)
            (Proc.tc.devRef main_v15) : FVec Ideal S1x1 .f32) shapeCasts_S1x1_S_)
          (constant S_ .f32 0x47C35000#32) : FVec Ideal S_ .f32) := by
  unfold Pipeline.afterTail₀
  show StableHlo.after hostOps1 _ (Proc.devRef .tc main_v17) = _
  after_results
  rfl

/-- The one entry, read as a rank-zero array, is the sum over the nodes. -/
theorem result_entry (c : Dev nD) (i : S_.Idx) :
    shapeCast S_ (resultArr m c : FVec Ideal S1x1 .f32) shapeCasts_S1x1_S_ i = ∑ j : Fin 100000, nodeAbsDiff m c j :=
  (shapeCast_apply _ shapeCasts_S1x1_S_ i (ix2 (0 : Fin 1) (0 : Fin 1)) (by
    rw [Shape.rowMajor_val_two]
    show 0 * 1 + 0 = (Shape.rowMajorPi _ i).val
    rw [Shape.rowMajorPi_zero])).trans (result_block_apply m c)

/-- So the kernel's result is the sum over the nodes divided by the node count. -/
theorem tail_result (c : Dev nD) :
    Pipeline.afterTail₀ cfgs (dats m) 0 (V0 m) [hostOps1] c main_v17 = meanOf (∑ j : Fin 100000, nodeAbsDiff m c j) := by
  have hw : Pipeline.withArrays (cfgs 0).spec c (V0 m c) (fun w => (dats m 0 c).arrAt w (cfgs 0).N) (Proc.tc.devRef main_v15)
      = resultArr m c :=
    (Pipeline.withArrays_arr spec0 launch0.win.arr_inj c _ _ 2).trans (final_result m c)
  rw [tail_term, hw]
  exact congrArg (fun x : FVec Ideal S_ .f32 => Host.divf x (constant S_ .f32 0x47C35000#32))
    (funext fun i => result_entry m c i)

/-- The run, read: the result at the mean absolute difference, the two arguments unchanged. -/
theorem run : θ_run (defs (F := Ideal)) (onTc (τ := τ) (main (F := Ideal))) ⟨m, fun _ => 0, ρ⟩ fun r => ∀ c : Dev nD,
      r.2.mem ((c.tc : Thread nD τ).loc main_v17) = meanOf (∑ j : Fin 100000, nodeAbsDiff m c j)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v17 (Pipeline.mem_restRefs_of main_v17 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Run

end Cert.KernelIdeal.AbsDiff

end
-- ==== Proof.RefValue.lean ====
/-
  What the reference computes, in the same closing form as the kernel.

  The reference forms the two vectors of per-node sums (the edge values added up by destination node and by source
  node), subtracts them, takes absolute values, sums over the 100000 nodes from zero, and divides by 100000. Read
  at the ideal values the sum from zero is the plain sum, over the node positions k < 100000, of the absolute
  difference at position k.
-/
import proofs.«126315_j58102317580772_1_alg».proof.Proof.Gen.ReferenceIdeal.Read
import proofs.«126315_j58102317580772_1_alg».proof.Proof.Spec
import proofs.«126315_j58102317580772_1_alg».proof.Proof.LibColumnSum
import Idealize.ShloMosaic.Lib.ValueIdx

noncomputable section

open Idealize.ShloMosaic Idealize.ShloMosaic.TcCoe Idealize.SL.Sem Idealize.ShloMosaic.ValueIdx

namespace Cert.ReferenceIdeal.AbsDiff

open Cert.ReferenceIdeal Cert.ReferenceIdeal.Gen Cert.ReferenceIdeal.Read Cert.MeanAbsDiff

variable (x0 : (⟨S2x6400000, .i32⟩ : BufTy).Contents (Elt Ideal)) (x1 : (⟨S6400000x1, .f32⟩ : BufTy).Contents (Elt Ideal))

/-- The reference's sum from zero is the sum over the node positions of the vector of absolute differences. -/
theorem total_eq (i : S_.Idx) :
    val_main_v13 (F := Ideal) x0 x1 i = ∑ k : Fin 100000, val_main_v12 (F := Ideal) x0 x1 (ix1 k) := by
  have h0 : (val_main_cst_1 (F := Ideal)) (Shape.Idx.first h_S_) = 0 := Ideal.ofBits_zero_f32
  refine (val_main_v13_apply x0 x1 i).trans ?_
  rw [h0, zero_add]
  exact Cert.LibColumnSum.sum_idx1 (n := 100000) (val_main_v12 (F := Ideal) x0 x1)

/-- So its result is that sum over the node count. -/
theorem result_eq :
    val_main_v14 (F := Ideal) x0 x1 = meanOf (∑ k : Fin 100000, val_main_v12 (F := Ideal) x0 x1 (ix1 k)) :=
  congrArg (fun x : FVec Ideal S_ .f32 => Host.divf x (constant S_ .f32 0x47C35000#32))
    (funext fun i => total_eq x0 x1 i)

end Cert.ReferenceIdeal.AbsDiff

end
-- ==== Proof.SameSums.lean ====
/-
  On the same argument arrays the two programs form the same per-node sums.

  Each program slices a row of the edge list (row 1 for the destinations, row 0 for the sources), reshapes it to a
  column of indices, and scatter-adds the edge values into a vector of 100000 zeros; the operations and their
  dimension records are the same in both texts. The comparison is made operand by operand — the record, the zero
  vector, the index column, the values — so the scatter-add itself is never opened.
-/
import proofs.«126315_j58102317580772_1_alg».proof.Proof.KernelValue
import proofs.«126315_j58102317580772_1_alg».proof.Proof.RefValue

noncomputable section

open Idealize.ShloMosaic Idealize.ShloMosaic.TcCoe Idealize.SL.Sem Idealize.ShloMosaic.ValueIdx

namespace Cert.Proof.SameSums

/-- A scatter-add of equal records, equal operands, equal indices and equal updates is equal. -/
theorem scatterAdd_congr {s si u : Shape} {w : ℕ} {d d' : ScatterDims s si u} (hd : d = d')
    {x x' : FVec Ideal s .f32} (hx : x = x') {i i' : IVec si w} (hi : i = i') {v v' : FVec Ideal u .f32} (hv : v = v') :
    Host.scatterAdd d x i v = Host.scatterAdd d' x' i' v' := by
  subst hd hx hi hv; rfl

variable (m : (ℓ : Loc Cert.KernelIdeal.nD Cert.KernelIdeal.τ Cert.KernelIdeal.sig) → Buf (Elt Ideal) ℓ)
  (c : Dev Cert.KernelIdeal.nD)

/-- The edge list and the edge values the kernel was launched with. -/
abbrev edges := m ((c.tc : Thread Cert.KernelIdeal.nD Cert.KernelIdeal.τ).loc Cert.KernelIdeal.main_arg0)
abbrev vals := m ((c.tc : Thread Cert.KernelIdeal.nD Cert.KernelIdeal.τ).loc Cert.KernelIdeal.main_arg1)

/-- The sums by destination node agree, -/
theorem incoming_eq :
    Cert.ReferenceIdeal.Read.val_main_v5 (F := Ideal) (edges m c) (vals m c) = Cert.KernelIdeal.AbsDiff.incoming m c := by
  unfold Cert.ReferenceIdeal.Read.val_main_v5 Cert.KernelIdeal.AbsDiff.incoming
  exact scatterAdd_congr (by rfl) (by rfl) (by rfl) (by rfl)

/-- and so do the sums by source node. -/
theorem outgoing_eq :
    Cert.ReferenceIdeal.Read.val_main_v10 (F := Ideal) (edges m c) (vals m c) = Cert.KernelIdeal.AbsDiff.outgoing m c := by
  unfold Cert.ReferenceIdeal.Read.val_main_v10 Cert.KernelIdeal.AbsDiff.outgoing
  exact scatterAdd_congr (by rfl) (by rfl) (by rfl) (by rfl)

/-- Hence the absolute differences agree node by node. -/
theorem node_abs_diff_eq (k : Fin 100000) :
    Cert.ReferenceIdeal.Read.val_main_v12 (F := Ideal) (edges m c) (vals m c) (ix1 k)
      = Cert.KernelIdeal.AbsDiff.nodeAbsDiff m c k := by
  rw [Cert.ReferenceIdeal.Read.val_main_v12_apply, Cert.ReferenceIdeal.Read.val_main_v11_apply, Ideal.hostAbsf_def,
    incoming_eq, outgoing_eq]
  rfl

end Cert.Proof.SameSums

end
-- ==== Proof.lean ====
/-
  The mean absolute difference between per-node incoming and outgoing sums: the kernel against the reference.

  Both programs start from an edge list (two rows of 6400000 node numbers) and one value per edge, and both form, on
  the host and by the same scatter-add, the vector of per-node sums by destination node and the vector by source
  node. The reference subtracts the two vectors, takes absolute values, sums the 100000 entries from zero and
  divides by 100000. The kernel extends both vectors by 352 zeros, lays them out as 784 rows of 128 lanes, and on a
  grid of 7 points sums the absolute differences block by block into a running total that the first point starts
  at zero and the last point writes out; the host then divides that entry by the same 100000.

  At the ideal values the two are one number. The kernel's sum visits every position of the extended vector once
  (position (112 t + r) * 128 + l at point t, row r, lane l), the 352 added positions contribute |0 - 0| = 0, and a
  sum of extended reals may be regrouped and reordered freely, so the running total after the last point is the sum
  over the nodes (Proof/Spec.lean, Proof/KernelValue.lean); the reference's sum from zero is the same sum
  (Proof/RefValue.lean), the per-node sums of the two programs being one function of the arguments
  (Proof/SameSums.lean); and both end in one and the same division, which is never opened. No step uses that the
  inputs are finite.

  The three frames are the generated ones (the reference's is its generated run with the result dropped); the ideal
  pass rewrote nothing, so the kernel's idealization is its own text.
-/
import proofs.«126315_j58102317580772_1_alg».proof.Defs
import proofs.«126315_j58102317580772_1_alg».proof.Proof.Gen.Kernel
import proofs.«126315_j58102317580772_1_alg».proof.Proof.Gen.Kernel.Skeleton
import proofs.«126315_j58102317580772_1_alg».proof.Proof.Gen.Kernel.Launch
import proofs.«126315_j58102317580772_1_alg».proof.Proof.Gen.Kernel.Points
import proofs.«126315_j58102317580772_1_alg».proof.Proof.Gen.Kernel.Frame
import proofs.«126315_j58102317580772_1_alg».proof.Proof.Gen.KernelIdeal
import proofs.«126315_j58102317580772_1_alg».proof.Proof.Gen.KernelIdeal.Skeleton
import proofs.«126315_j58102317580772_1_alg».proof.Proof.Gen.KernelIdeal.Launch
import proofs.«126315_j58102317580772_1_alg».proof.Proof.Gen.KernelIdeal.Points
import proofs.«126315_j58102317580772_1_alg».proof.Proof.Gen.KernelIdeal.Frame
import proofs.«126315_j58102317580772_1_alg».proof.Proof.Gen.ReferenceIdeal
import proofs.«126315_j58102317580772_1_alg».proof.Proof.Gen.Pre_finite_inputs
import proofs.«126315_j58102317580772_1_alg».proof.Proof.Gen.ReferenceIdeal.Run
import proofs.«126315_j58102317580772_1_alg».proof.Proof.Gen.ReferenceIdeal.Read
import proofs.«126315_j58102317580772_1_alg».proof.Proof.KernelValue
import proofs.«126315_j58102317580772_1_alg».proof.Proof.RefValue
import proofs.«126315_j58102317580772_1_alg».proof.Proof.SameSums
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories that agree on the arguments both programs end at the sum over the nodes of the per-node absolute
    differences, divided by the node count. -/
theorem algebraic : Cert.algebraic_KernelIdeal_ReferenceIdeal := by
  intro m ρ m' ρ' _ hagree
  refine ⟨fun c => Cert.MeanAbsDiff.meanOf (∑ j : Fin 100000, Cert.KernelIdeal.AbsDiff.nodeAbsDiff m c j),
    Cert.KernelIdeal.AbsDiff.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.AbsDiff.result_eq, (hagree c).1, (hagree c).2]
  exact congrArg Cert.MeanAbsDiff.meanOf (Finset.sum_congr rfl fun k _ => Cert.Proof.SameSums.node_abs_diff_eq m c k)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
